-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 46
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One dense layer followed by a rectifier, entry by entry, on the extended reals.

  For a matrix `A` of `M` rows and 128 columns, a 128 × 128 weight matrix `W` and a bias vector `b` of length 128, the
  layer's entry `(r, c)` is `max (∑ q, A (r, q) · W (q, c) + b c) z`, where `z` is the value of the all-zero word (kept as
  that word: both programs compare with the same one, so it is never evaluated). Row `r` of the result depends on row
  `r` of `A` only: that is what lets a band of rows be computed by itself.
-/
import Idealize.ShloMosaic.PureOps.Ideal
import Idealize.ShloMosaic.Lib.ValueIdx

noncomputable section

open scoped BigOperators

namespace Cert.DenseRelu

open Idealize.ShloMosaic Idealize.ShloMosaic.ValueIdx

/-- `relu (A · W + b)` at entry `i = (r, c)`. -/
def layer {M : Nat} (A : (⟨2, ![M, 128]⟩ : Shape).Idx → EReal) (W : (⟨2, ![128, 128]⟩ : Shape).Idx → EReal)
    (b : (⟨1, ![128]⟩ : Shape).Idx → EReal) : (⟨2, ![M, 128]⟩ : Shape).Idx → EReal :=
  fun i => max ((∑ q : Fin 128, A (ix2 (i 0) q) * W (ix2 q (i 1))) + b (ix1 (i 1))) (Ideal.ofBits .f32 0x00000000#32)

/-- The entry at `(r, c)`, by coordinates. -/
theorem layer_ix2 {M : Nat} (A : (⟨2, ![M, 128]⟩ : Shape).Idx → EReal) (W : (⟨2, ![128, 128]⟩ : Shape).Idx → EReal)
    (b : (⟨1, ![128]⟩ : Shape).Idx → EReal) (r : Fin M) (c : Fin 128) :
    layer A W b (ix2 r c)
      = max ((∑ q : Fin 128, A (ix2 r q) * W (ix2 q c)) + b (ix1 c)) (Ideal.ofBits .f32 0x00000000#32) := rfl

/-- ROWS ARE INDEPENDENT: if row `r'` of `A'` is row `r` of `A`, entry `(r', c)` of the layer of `A'` is entry `(r, c)` of
    the layer of `A`. -/
theorem layer_row {M M' : Nat} (A : (⟨2, ![M, 128]⟩ : Shape).Idx → EReal) (A' : (⟨2, ![M', 128]⟩ : Shape).Idx → EReal)
    (W : (⟨2, ![128, 128]⟩ : Shape).Idx → EReal) (b : (⟨1, ![128]⟩ : Shape).Idx → EReal) (r : Fin M) (r' : Fin M')
    (c : Fin 128) (h : ∀ q : Fin 128, A' (ix2 r' q) = A (ix2 r q)) :
    layer A' W b (ix2 r' c) = layer A W b (ix2 r c) := by
  rw [layer_ix2, layer_ix2]
  exact congrArg (fun s => max (s + b (ix1 c)) (Ideal.ofBits .f32 0x00000000#32))
    (Finset.sum_congr rfl fun q _ => by rw [h q])

end Cert.DenseRelu

end
-- ==== Proof.LibPlainDotSum.lean ====
/-
  A matrix product read at an entry, as the textbook sum.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is
  `∑ q : Fin K, A (i, q) * B (q, j)`. Stated for ANY dimension-number record with those lists and for operands of any
  two float formats, at the extended reals: for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibPlainDotSum

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)`: at contraction position `k` with coordinate `q` the
    left operand is read at `(i, q)` and the right at `(q, j)`, and the positions correspond one to one to the
    coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)

/-- A block product into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact plain_sum d hlc hrc hln hrn hlb hrb l r i j

/-- The host's product, read at `(i, j)`, is that sum. -/
theorem hostDot_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    Host.dotGeneral d prec l r (ix2 i j) = ∑ q : Fin K, l (ix2 i q) * r (ix2 q j) := by
  simp only [Host.dotGeneral]
  rw [Ideal.dotGeneral_apply]
  exact plain_sum d hlc hrc hln hrn hlb hrb l r i j

end Cert.LibPlainDotSum

end
-- ==== Proof.Payload.lean ====
/-
  What the kernel body stores, at the extended reals: the dense layer of its three loaded blocks.

  The body loads a band `x` of 5000 rows, the weight matrix `w` and the bias `b`, narrows `x` and `w` to bf16 (at the
  extended reals a change of format is the identity), multiplies them into a zero accumulator, adds the bias laid
  out as one row and repeated down the band, and takes the maximum with the zero word. Entry `(p, c)` of the stored
  value is therefore `max (∑ q, x (p, q) · w (q, c) + b c) z`: the layer of the band.
-/
import proofs.«152179_j52218212385050_1_alg».proof.Proof.Gen.KernelIdeal.Skeleton
import proofs.«152179_j52218212385050_1_alg».proof.Proof.Layer
import proofs.«152179_j52218212385050_1_alg».proof.Proof.LibPlainDotSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.DenseRelu

/-- The product of the narrowed band and the narrowed weights into the zero accumulator, at `(p, c)`: the row of the
    band against the column of the weights. -/
theorem product_apply (x : FVec Ideal S5000x128 .f32) (w : FVec Ideal S128x128 .f32) (p : Fin 5000) (c : Fin 128) :
    matmul dot_S5000x128_S128x128_S5000x128_1_0_0_1_n_n none
        (truncf .bf16 (shapeCast S5000x128 x shapeCasts_S5000x128_S5000x128) bitsLt_bf16_f32)
        (truncf .bf16 w bitsLt_bf16_f32) (constant S5000x128 .f32 0x00000000#32) (ix2 p c)
      = ∑ q : Fin 128, x (ix2 p q) * w (ix2 q c) := by
  rw [shapeCast_self]
  exact Cert.LibPlainDotSum.matmul_zero_apply dot_S5000x128_S128x128_S5000x128_1_0_0_1_n_n rfl rfl rfl rfl rfl rfl none
    (truncf .bf16 x bitsLt_bf16_f32) (truncf .bf16 w bitsLt_bf16_f32) p c

/-- The bias as one row, repeated down the band, at `(p, c)`: the bias at `c`. -/
theorem bias_apply (b : FVec Ideal S128 .f32) (p : Fin 5000) (c : Fin 128) :
    broadcastTo S5000x128 (shapeCast S1x128 b shapeCasts_S128_S1x128) broadcasts_S1x128_S5000x128 (ix2 p c) = b (ix1 c) := by
  rw [broadcastTo_1b_ab_apply, shapeCast_a_1a_apply]

/-- THE STORED VALUE is the layer of the loaded blocks. -/
theorem pay_eq (x : Vec Ideal S5000x128 .f32) (w : Vec Ideal S128x128 .f32) (b : Vec Ideal S128 .f32) :
    k0_pay1 (F := Ideal) x w b = layer x w b := by
  funext j
  obtain ⟨p, c, rfl⟩ : ∃ (p : Fin 5000) (c : Fin 128), j = ix2 p c := ⟨j 0, j 1, eq_ix2 j⟩
  rw [layer_ix2]
  unfold k0_pay1
  show max (matmul (F := Ideal) dot_S5000x128_S128x128_S5000x128_1_0_0_1_n_n none
        (truncf (F := Ideal) .bf16 (shapeCast S5000x128 (x : FVec Ideal S5000x128 .f32) shapeCasts_S5000x128_S5000x128) bitsLt_bf16_f32)
        (truncf (F := Ideal) .bf16 (w : FVec Ideal S128x128 .f32) bitsLt_bf16_f32) (constant (F := Ideal) S5000x128 .f32 0x00000000#32) (ix2 p c)
      + broadcastTo S5000x128 (shapeCast S1x128 (b : FVec Ideal S128 .f32) shapeCasts_S128_S1x128) broadcasts_S1x128_S5000x128 (ix2 p c))
      (Ideal.ofBits .f32 0x00000000#32) = _
  rw [product_apply, bias_apply]

end Cert.KernelIdeal.Body

end
-- ==== Proof.Bands.lean ====
/-
  From bands to the whole array: what the kernel's result array holds after the run.

  The grid has ten points; point `t` is handed rows `5000 t … 5000 t + 4999` of the aggregated features `h` (the array
  the host operations before the call leave), the whole weight matrix and the whole bias, and writes back rows
  `5000 t … 5000 t + 4999` of the result. What it writes is the layer of its band (the stored value), and a row of the
  layer depends on the same row of its argument only, so point `t` writes band `t` of the layer of `h`. The ten bands
  tile the 50000 rows (row `r` is in band `r / 5000`), so the result array ends holding the layer of `h`.
-/
import proofs.«152179_j52218212385050_1_alg».proof.Proof.Gen.KernelIdeal.Value
import proofs.«152179_j52218212385050_1_alg».proof.Proof.Payload

noncomputable section

open scoped BigOperators

namespace Cert.KernelIdeal.Bands

open Cert.KernelIdeal Cert.KernelIdeal.Gen Idealize.ShloMosaic Idealize.ShloMosaic.TcCoe Idealize.SL.Sem
open Idealize.ShloMosaic.ValueIdx Cert.DenseRelu
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The aggregated features as the region finds them: what the host operations before the call computed. -/
abbrev feats (c : Dev nD) : FVec Ideal S50000x128 .f32 := V m c main_v32
/-- The weights as the region finds them. -/
abbrev weights (c : Dev nD) : FVec Ideal S128x128 .f32 := V m c main_arg2
/-- The bias as the region finds it. -/
abbrev bias (c : Dev nD) : FVec Ideal S128 .f32 := V m c main_arg3

/-- No host operation writes the weights or the bias: the region finds them as launched. -/
theorem weights_eq (c : Dev nD) : weights m c = m ((c : Thread nD τ).loc main_arg2) := V_main_arg2 m c
theorem bias_eq (c : Dev nD) : bias m c = m ((c : Thread nD τ).loc main_arg3) := V_main_arg3 m c

/-- The block indices over the grid: the features' band and the result's band move together down the rows and stay
    in column block 0; the weights and the bias are always block 0; there are ten bands. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0
    ∧ win0_3.index t (0 : Fin 2) ≤ 9 :=
  (by decide +kernel : ∀ t : Fin grid0.N, _)

/-- Every one of the ten bands is some point's. -/
theorem idx_onto : ∀ n : Fin 10, ∃ t : Fin cfg0.N, win0_3.index t = ![n.val, 0] :=
  (by decide +kernel : ∀ n : Fin 10, ∃ t : Fin grid0.N, win0_3.index t = ![n.val, 0])

/-- The layer of band `n` of `H` (with the same weights and bias) at `j` is the layer of `H` at the array index `i`
    that `j` names: row `5000 n + j₀`, the same column. -/
theorem band_of_rows (H : FVec Ideal S50000x128 .f32) (W W' : FVec Ideal S128x128 .f32) (B B' : FVec Ideal S128 .f32)
    (X : FVec Ideal S5000x128 .f32) (n : Nat) (hW : W' = W) (hB : B' = B)
    (hX : ∀ (p : Fin 5000) (q : Fin 128) (r : Fin 50000), r.val = n * 5000 + p.val → X (ix2 p q) = H (ix2 r q))
    (j : S5000x128.Idx) (i : S50000x128.Idx) (hi0 : (i 0).val = n * 5000 + (j 0).val) (hi1 : (i 1).val = (j 1).val) :
    layer X W' B' j = layer H W B i := by
  subst hW hB
  obtain ⟨p, c, rfl⟩ : ∃ (p : Fin 5000) (c : Fin 128), j = ix2 p c := ⟨j 0, j 1, eq_ix2 j⟩
  obtain ⟨r, c', rfl⟩ : ∃ (r : Fin 50000) (c' : Fin 128), i = ix2 r c' := ⟨i 0, i 1, eq_ix2 i⟩
  have hc : c' = c := Fin.ext hi1
  subst hc
  exact layer_row H X W' B' r p c' (fun q => hX p q r hi0)

/-- BAND `t` OF THE LAYER, for ANY arrays: the layer of what point `t` is handed — rows `5000 t …` of `A`, all of `W`, all
    of `B` — is the layer of `A`, `W`, `B` read through the band the point writes back. -/
theorem band_layer (t : Fin cfg0.N) (A : FVec Ideal S50000x128 .f32) (W : FVec Ideal S128x128 .f32)
    (B : FVec Ideal S128 .f32) :
    (cfg0.win 3).cut (grid0.coords t)
        (layer (((cfg0.win 0).blk t).view.read (Elt Ideal) A : FVec Ideal S5000x128 .f32)
          (((cfg0.win 1).blk t).view.read (Elt Ideal) W : FVec Ideal S128x128 .f32)
          (((cfg0.win 2).blk t).view.read (Elt Ideal) B : FVec Ideal S128 .f32))
      = ((cfg0.win 3).blk t).view.read (Elt Ideal) (layer A W B) := by
  obtain ⟨e0, e1, e2, e3, e4, e5, e6⟩ := idx_facts t
  have hW : (((cfg0.win 1).blk t).view.read (Elt Ideal) W : FVec Ideal S128x128 .f32) = W := by
    funext y
    show W (((cfg0.win 1).blk t).view.emb y) = W y
    refine congrArg W (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hB : (((cfg0.win 2).blk t).view.read (Elt Ideal) B : FVec Ideal S128 .f32) = B := by
    funext y
    show B (((cfg0.win 2).blk t).view.emb y) = B y
    refine congrArg B (funext fun a => Fin.ext ?_)
    match a with
    | ⟨0, _⟩ => show win0_2.index t (0 : Fin 1) * 128 + 1 * (y 0).val = (y 0).val; omega
  have hX : ∀ (p : Fin 5000) (q : Fin 128) (r : Fin 50000), r.val = win0_3.index t (0 : Fin 2) * 5000 + p.val →
      (((cfg0.win 0).blk t).view.read (Elt Ideal) A : FVec Ideal S5000x128 .f32) (ix2 p q) = A (ix2 r q) := by
    intro p q r hr
    show A (((cfg0.win 0).blk t).view.emb (ix2 p q)) = A (ix2 r q)
    refine congrArg A (funext fun a => Fin.ext ?_)
    match a with
    | ⟨0, _⟩ => show win0_0.index t (0 : Fin 2) * 5000 + 1 * p.val = r.val; omega
    | ⟨1, _⟩ => show win0_0.index t (1 : Fin 2) * 128 + 1 * q.val = q.val; omega
  funext j
  show layer (((cfg0.win 0).blk t).view.read (Elt Ideal) A : FVec Ideal S5000x128 .f32)
      (((cfg0.win 1).blk t).view.read (Elt Ideal) W : FVec Ideal S128x128 .f32)
      (((cfg0.win 2).blk t).view.read (Elt Ideal) B : FVec Ideal S128 .f32) j
    = layer A W B (((cfg0.win 3).blk t).view.emb j)
  have hi0 : ((((cfg0.win 3).blk t).view.emb j : S50000x128.Idx) 0).val = win0_3.index t (0 : Fin 2) * 5000 + (j 0).val := by
    show win0_3.index t (0 : Fin 2) * 5000 + 1 * (j 0).val = win0_3.index t (0 : Fin 2) * 5000 + (j 0).val; omega
  have hi1 : ((((cfg0.win 3).blk t).view.emb j : S50000x128.Idx) 1).val = (j 1).val := by
    show win0_3.index t (1 : Fin 2) * 128 + 1 * (j 1).val = (j 1).val; omega
  exact band_of_rows A W _ B _ _ (win0_3.index t (0 : Fin 2)) hW hB hX j (((cfg0.win 3).blk t).view.emb j) hi0 hi1

/-- WHAT POINT `t` WRITES BACK is band `t` of the layer of the aggregated features. -/
theorem flushed_eq (c : Dev nD) (t : Fin cfg0.N) :
    (dats m 0 c).flushed 3 t
      = ((cfg0.win 3).blk t).view.read (Elt Ideal) (layer (feats m c) (weights m c) (bias m c)) := by
  rw [Cert.KernelIdeal.Value.flushed3]
  unfold out0_3
  rw [View.canon_unit_zero hz2]
  simp only [View.ld_unit_zero (S := S5000x128) hz2, View.ld_unit_zero (S := S128x128) hz2,
    View.ld_unit_zero (S := S128) hz1]
  rw [Body.pay_eq]
  unfold iblk
  exact band_layer t (V m c (Pipeline.arrRef spec0 0)) (V m c (Pipeline.arrRef spec0 1)) (V m c (Pipeline.arrRef spec0 2))

/-- An index of the array is in point `t`'s band iff each coordinate is in the band's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v33).slice (win0_3.rect t)).set ↔ _
  rw [View.set_slice_whole, Rect.mem_set_unit]
  exact Iff.rfl

/-- THE BANDS COVER THE ARRAY: row `r` is in band `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the run is the layer of the aggregated features. -/
theorem final (c : Dev nD) : (dats m 0 c).arrAt 3 cfg0.N = layer (feats m c) (weights m c) (bias m c) :=
  (dats m 0 c).arrAt_eq_of_cover 3 (layer (feats m c) (weights m c) (bias m c)) (fun t _ => flushed_eq m c t) cover

/-- The run, read: the result array at the layer of the aggregated features, the arguments unchanged. -/
theorem run : θ_run defs (onTc (τ := τ) (main (F := Ideal))) ⟨m, fun _ => 0, ρ⟩ fun r => ∀ c : Dev nD,
      r.2.mem ((c : Thread nD τ).loc main_v33) = layer (feats m c) (weights m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Bands

end
-- ==== Proof.Aggregate.lean ====
/-
  The aggregation is one function of the arguments in both programs.

  Before its one call the kernel's program runs the same host operations as the reference's first 41: the two index
  rows are cut out of `edge_index`, the degrees are counted by scattering ones, clamped below by one and turned into
  inverse square roots, the features are scaled by the source's factor, gathered along the edges, scatter-added into
  their destinations, and scaled by the destination's factor. Read back, the array the region finds is, operation by
  operation, the reference's 33rd value as a function of `x` and `edge_index`.
-/
import proofs.«152179_j52218212385050_1_alg».proof.Proof.Gen.KernelIdeal.Frame
import proofs.«152179_j52218212385050_1_alg».proof.Proof.Gen.ReferenceIdeal.Read
import Idealize.ShloMosaic.Lib.StableHlo.Run

set_option maxRecDepth 16384

noncomputable section

namespace Cert.KernelIdeal.Aggregate

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 2000000 in
/-- THE AGGREGATED FEATURES the region finds are the reference's aggregation of the launch contents of `x` and
    `edge_index`. -/
theorem feats_eq (c : Dev nD) :
    (V m c main_v32 : S50000x128.Idx → Elt F .f32)
      = Cert.ReferenceIdeal.Read.val_main_v32 (F := F) (m ((c : Thread nD τ).loc main_arg0)) (m ((c : Thread nD τ).loc main_arg1)) := by
  show StableHlo.after hostOps0 (fun b => m (c, b)) (Proc.devRef .tc main_v32) = _
  after_results_simp
  rfl

end Cert.KernelIdeal.Aggregate

end
-- ==== Proof.RefLayer.lean ====
/-
  The reference's last operations, at the extended reals: the dense layer of the aggregated features.

  After the aggregation (its 33rd value, `h`) the reference multiplies `h` by the weights with one whole matrix
  product, adds the bias laid out as one row and repeated down all rows, and takes the maximum with a zero splat.
  Entry `(r, c)` is `max (∑ q, h (r, q) · W (q, c) + b c) z`: the layer of `h`.
-/
import proofs.«152179_j52218212385050_1_alg».proof.Proof.Gen.ReferenceIdeal.Read
import proofs.«152179_j52218212385050_1_alg».proof.Proof.Layer

noncomputable section

open scoped BigOperators

namespace Cert.ReferenceIdeal.Tail

open Cert.ReferenceIdeal Cert.ReferenceIdeal.Read Idealize.ShloMosaic Idealize.ShloMosaic.ValueIdx Cert.DenseRelu

/-- The product's left operand is read at row `r`, column `q`. -/
theorem lidx_eq (i : S50000x128.Idx) (q : Fin 128) : lidx_main_v33 i q = ix2 (i 0) q :=
  funext fun a => Fin.ext (by match a with | ⟨0, _⟩ => rfl | ⟨1, _⟩ => rfl)

/-- The product's right operand is read at row `q`, column `c`. -/
theorem ridx_eq (i : S50000x128.Idx) (q : Fin 128) : ridx_main_v33 i q = ix2 q (i 1) :=
  funext fun a => Fin.ext (by match a with | ⟨0, _⟩ => rfl | ⟨1, _⟩ => rfl)

/-- The bias, as one row repeated down the rows, is read at column `c`. -/
theorem bidx_eq (i : S50000x128.Idx) : idx_main_v34 (idx_main_v35 i) = ix1 (i 1) :=
  funext fun a => Fin.ext (by match a with | ⟨0, _⟩ => rfl)

/-- THE REFERENCE'S RESULT is the layer of its aggregated features. -/
theorem result_eq (x0 : FVec Ideal S50000x128 .f32) (x1 : IVec S2x800000 32) (x2 : FVec Ideal S128x128 .f32)
    (x3 : FVec Ideal S128 .f32) :
    val_main_v38 (F := Ideal) x0 x1 x2 x3 = layer (val_main_v32 (F := Ideal) x0 x1) x2 x3 := by
  funext i
  rw [val_main_v38_apply, val_main_v36_apply, val_main_v33_apply, val_main_v35_apply, val_main_v34_apply,
    val_main_v37_apply, val_main_cst_6_apply]
  simp only [lidx_eq, ridx_eq, bidx_eq]
  rfl

end Cert.ReferenceIdeal.Tail

end
-- ==== Proof.lean ====
/-
  The kernel and its reference compute one graph-convolution layer, `relu (agg · W + b)`, where `agg` is the
  degree-normalised neighbourhood sum of the node features.

  Both programs compute `agg` by the same host operations (out- and in-degrees by scattering ones, clamped below by one,
  inverse square roots, a gather along the edges and a scatter-add into the destinations). The reference then forms
  `agg · W + b` with one whole matrix product and clamps it below by zero. The kernel does the dense part in a call over
  ten bands of 5000 rows: each band is narrowed to bf16 together with the weights, multiplied into a zero accumulator,
  biased and clamped. On the extended reals a change of format is the identity and a product into a zero accumulator is
  the plain sum over the contraction index, so each band of the kernel's result is that band of the reference's; the
  bands tile the rows. No algebraic law beyond re-indexing the contraction's sum is used, so the precondition is never
  opened.
-/
import proofs.«152179_j52218212385050_1_alg».proof.Defs
import proofs.«152179_j52218212385050_1_alg».proof.Proof.Gen.Kernel
import proofs.«152179_j52218212385050_1_alg».proof.Proof.Gen.Kernel.Skeleton
import proofs.«152179_j52218212385050_1_alg».proof.Proof.Gen.Kernel.Launch
import proofs.«152179_j52218212385050_1_alg».proof.Proof.Gen.Kernel.Points
import proofs.«152179_j52218212385050_1_alg».proof.Proof.Gen.Kernel.Frame
import proofs.«152179_j52218212385050_1_alg».proof.Proof.Gen.KernelIdeal
import proofs.«152179_j52218212385050_1_alg».proof.Proof.Gen.KernelIdeal.Skeleton
import proofs.«152179_j52218212385050_1_alg».proof.Proof.Gen.KernelIdeal.Launch
import proofs.«152179_j52218212385050_1_alg».proof.Proof.Gen.KernelIdeal.Points
import proofs.«152179_j52218212385050_1_alg».proof.Proof.Gen.KernelIdeal.Frame
import proofs.«152179_j52218212385050_1_alg».proof.Proof.Gen.ReferenceIdeal
import proofs.«152179_j52218212385050_1_alg».proof.Proof.Gen.Pre_finite_inputs
import proofs.«152179_j52218212385050_1_alg».proof.Proof.Gen.KernelIdeal.Value
import proofs.«152179_j52218212385050_1_alg».proof.Proof.Gen.ReferenceIdeal.Run
import proofs.«152179_j52218212385050_1_alg».proof.Proof.Gen.ReferenceIdeal.Read
import proofs.«152179_j52218212385050_1_alg».proof.Proof.Layer
import proofs.«152179_j52218212385050_1_alg».proof.Proof.Bands
import proofs.«152179_j52218212385050_1_alg».proof.Proof.Aggregate
import proofs.«152179_j52218212385050_1_alg».proof.Proof.RefLayer
import Idealize.ShloMosaic.Adequacy
import Idealize.ShloMosaic.Init

noncomputable section

namespace Cert.Proof

open Idealize.ShloMosaic Idealize.ShloMosaic.TcCoe Idealize.SL.Sem Cert.DenseRelu

/-- The kernel's result array in terms of the arguments: the layer of the reference's aggregation of `x` and
    `edge_index`, with the weights and the bias as launched. -/
theorem kernel_result (m : (ℓ : Loc Cert.KernelIdeal.nD Cert.KernelIdeal.τ Cert.KernelIdeal.sig) → Buf (Elt Ideal) ℓ)
    (c : Dev Cert.KernelIdeal.nD) :
    layer (Cert.KernelIdeal.Bands.feats m c) (Cert.KernelIdeal.Bands.weights m c) (Cert.KernelIdeal.Bands.bias m c)
      = layer (Cert.ReferenceIdeal.Read.val_main_v32 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.Bands.weights_eq, Cert.KernelIdeal.Bands.bias_eq]
  exact congrArg (fun A => layer A _ _) (Cert.KernelIdeal.Aggregate.feats_eq m c)

theorem frame_k : Cert.frame_Kernel := fun m ρ _ => Cert.Kernel.Gen.frame m ρ

theorem frame_ki : Cert.frame_KernelIdeal := fun m ρ _ => Cert.KernelIdeal.Gen.frame m ρ

/-- The reference has no call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the same aggregation of the same arguments. -/
theorem algebraic : Cert.algebraic_KernelIdeal_ReferenceIdeal := by
  intro m ρ m' ρ' _ hagree
  refine ⟨fun c => layer (Cert.ReferenceIdeal.Read.val_main_v32 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_result m c), (h c).2⟩)
      (Cert.KernelIdeal.Bands.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.Tail.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
